-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S10x1024 : Shape := ⟨2, ![10, 1024]⟩
abbrev S64x1024 : Shape := ⟨2, ![64, 1024]⟩
abbrev S64 : Shape := ⟨1, ![64]⟩
abbrev S_ : Shape := ⟨0, ![]⟩

class Facts : Prop where
  bcast_S_S10x1024 : S_.BroadcastsInDim S10x1024 (![] : Fin 0 → Fin S10x1024.rank)
  reducesTo_S10x1024_S_d0_1 : S10x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_v13 : IVec S_ 1) (main_v15 : IVec S32x4096 1) (main_c_5 : IVec S_ 1) : IVec S_ 1 :=
  let main_v16 : IVec S_ 1 := (fun x v => Host.reduce IntOp.andi x v reducesTo_S32x4096_S_d0_1 h_S_) main_v15 main_c_5
  let main_v17 : IVec S_ 1 := andi main_v13 main_v16
  main_v17

def fn {F : FTy → Type} [FloatOps F] (main_arg0 : IVec S32x4096 32) (main_arg1 : FVec F S10x1024 .f32) (main_arg2 : FVec F S64x1024 .f32) (main_arg3 : FVec F S64 .f32) : IVec S_ 1 :=
  let main_v0 : FVec F S10x1024 .f32 := Host.absf main_arg1
  let main_cst : FVec F S_ .f32 := constant S_ .f32 0x7F800000#32
  let main_v1 : FVec F S10x1024 .f32 := broadcastInDim S10x1024 ![] bcast_S_S10x1024 main_cst
  let main_v2 : IVec S10x1024 1 := cmpf .olt main_v0 main_v1
  let main_c : IVec S_ 1 := constantI S_ 1 1#1
  let main_v3 : IVec S_ 1 := (fun x v => Host.reduce IntOp.andi x v reducesTo_S10x1024_S_d0_1 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S32x4096 32 := broadcastInDim S32x4096 ![] bcast_S_S32x4096 main_c_4
  let main_v15 : IVec S32x4096 1 := cmpi .sge main_arg0 main_v14
  let main_c_5 : IVec S_ 1 := constantI S_ 1 1#1
  fn_part1 (F := F) main_v13 main_v15 main_c_5
-- ==== Kernel.lean ====
abbrev S32x4096 : Shape := ⟨2, ![32, 4096]⟩
abbrev S10x1024 : Shape := ⟨2, ![10, 1024]⟩
abbrev S64x1024 : Shape := ⟨2, ![64, 1024]⟩
abbrev S64 : Shape := ⟨1, ![64]⟩
abbrev S64x10 : Shape := ⟨2, ![64, 10]⟩
abbrev S64x1 : Shape := ⟨2, ![64, 1]⟩
abbrev S2048x4096 : Shape := ⟨2, ![2048, 4096]⟩
abbrev S8x4096 : Shape := ⟨2, ![8, 4096]⟩
abbrev S512x4096 : Shape := ⟨2, ![512, 4096]⟩
abbrev S10x4096 : Shape := ⟨2, ![10, 4096]⟩
abbrev S1x4096 : Shape := ⟨2, ![1, 4096]⟩
abbrev S64x4096 : Shape := ⟨2, ![64, 4096]⟩
abbrev S1x2048x4096 : Shape := ⟨3, ![1, 2048, 4096]⟩

abbrev nBuf : Space → Nat
  | .hbm => 10
  | .vmem => 5
  | .smem => 0
  | _ => 0

abbrev bufTy : (tb : Table) → Fin (tcTables nBuf tb) → BufTy
  | .hbm, ⟨0, _⟩ => ⟨S32x4096, .i32⟩
  | .hbm, ⟨1, _⟩ => ⟨S10x1024, .f32⟩
  | .hbm, ⟨2, _⟩ => ⟨S64x1024, .f32⟩
  | .hbm, ⟨3, _⟩ => ⟨S64, .f32⟩
  | .hbm, ⟨4, _⟩ => ⟨S64x10, .f32⟩
  | .hbm, ⟨5, _⟩ => ⟨S64x1, .f32⟩
  | .hbm, ⟨6, _⟩ => ⟨S64x10, .f32⟩
  | .hbm, ⟨7, _⟩ => ⟨S64x10, .f32⟩
  | .hbm, ⟨8, _⟩ => ⟨S2048x4096, .f32⟩
  | .hbm, ⟨9, _⟩ => ⟨S1x2048x4096, .f32⟩
  | .local _ .vmem, ⟨0, _⟩ => ⟨S8x4096, .i32⟩
  | .local _ .vmem, ⟨1, _⟩ => ⟨S8x4096, .i32⟩
  | .local _ .vmem, ⟨2, _⟩ => ⟨S64x10, .f32⟩
  | .local _ .vmem, ⟨3, _⟩ => ⟨S512x4096, .f32⟩
  | .local _ .vmem, ⟨4, _⟩ => ⟨S512x4096, .f32⟩
  | _, _ => ⟨S32x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  inb_S64x10_S64x10_0_0 : ∀ a, (![0, 0] : Fin 2 → Nat) a + S64x10.size a ≤ S64x10.size a
  h_S64x10 : 0 < S64x10.numel
  shapeCasts_S64x10_S64x10 : S64x10.ShapeCasts S64x10
  iota_S10x4096_d0_w32 : S10x4096.Iotas .tc 32 [0]
  inb_S8x4096_S1x4096_0_0 : ∀ a, (![0, 0] : Fin 2 → Nat) a + S1x4096.size a ≤ S8x4096.size a
  h_S1x4096 : 0 < S1x4096.numel
  broadcasts_S1x4096_S10x4096 : S1x4096.Broadcasts S10x4096
  natLt_1_32 : 1 < 32
  inb_S512x4096_S64x4096_0_0 : ∀ a, (![0, 0] : Fin 2 → Nat) a + S64x4096.size a ≤ S512x4096.size a
  h_S64x4096 : 0 < S64x4096.numel
  inb_S8x4096_S1x4096_1_0 : ∀ a, (![1, 0] : Fin 2 → Nat) a + S1x4096.size a ≤ S8x4096.size a
  inb_S512x4096_S64x4096_64_0 : ∀ a, (![64, 0] : Fin 2 → Nat) a + S64x4096.size a ≤ S512x4096.size a
  inb_S8x4096_S1x4096_2_0 : ∀ a, (![2, 0] : Fin 2 → Nat) a + S1x4096.size a ≤ S8x4096.size a
  inb_S512x4096_S64x4096_128_0 : ∀ a, (![128, 0] : Fin 2 → Nat) a + S64x4096.size a ≤ S512x4096.size a
  inb_S8x4096_S1x4096_3_0 : ∀ a, (![3, 0] : Fin 2 → Nat) a + S1x4096.size a ≤ S8x4096.size a
  inb_S512x4096_S64x4096_192_0 : ∀ a, (![192, 0] : Fin 2 → Nat) a + S64x4096.size a ≤ S512x4096.size a
  inb_S8x4096_S1x4096_4_0 : ∀ a, (![4, 0] : Fin 2 → Nat) a + S1x4096.size a ≤ S8x4096.size a
  inb_S512x4096_S64x4096_256_0 : ∀ a, (![256, 0] : Fin 2 → Nat) a + S64x4096.size a ≤ S512x4096.size a
  inb_S8x4096_S1x4096_5_0 : ∀ a, (![5, 0] : Fin 2 → Nat) a + S1x4096.size a ≤ S8x4096.size a
  inb_S512x4096_S64x4096_320_0 : ∀ a, (![320, 0] : Fin 2 → Nat) a + S64x4096.size a ≤ S512x4096.size a
  inb_S8x4096_S1x4096_6_0 : ∀ a, (![6, 0] : Fin 2 → Nat) a + S1x4096.size a ≤ S8x4096.size a
  inb_S512x4096_S64x4096_384_0 : ∀ a, (![384, 0] : Fin 2 → Nat) a + S64x4096.size a ≤ S512x4096.size a
  inb_S8x4096_S1x4096_7_0 : ∀ a, (![7, 0] : Fin 2 → Nat) a + S1x4096.size a ≤ S8x4096.size a
  inb_S512x4096_S64x4096_448_0 : ∀ a, (![448, 0] : Fin 2 → Nat) a + S64x4096.size a ≤ S512x4096.size a
  shapeCasts_S2048x4096_S1x2048x4096 : S2048x4096.ShapeCasts S1x2048x4096
  dot_S64x1024_S10x1024_S64x10_1_1_0_0_n_n_wf : DotDims.WF S64x1024 S10x1024 S64x10 [1] [1] [0] [0] [] []
  dot_S64x10_S10x4096_S64x4096_1_0_0_1_n_n_wf : DotDims.WF S64x10 S10x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S32x4096.size a
  hwx0_0 : ∀ i : grid0.Coords, EltTy.bits .i32 = 32 ∨ (Rect.block (s := S32x4096) S8x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x10.size a ≤ S64x10.size a
  hwx0_1 : ∀ i : grid0.Coords, EltTy.bits .f32 = 32 ∨ (Rect.block (s := S64x10) S64x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2048x4096.size a
  hwx0_2 : ∀ i : grid0.Coords, EltTy.bits .f32 = 32 ∨ (Rect.block (s := S2048x4096) S512x4096.size (cc0_transform_2 i) (hinb0_2 i)).WholeWords (EltTy.packing .f32)

variable [Facts₀]

def dot_S64x1024_S10x1024_S64x10_1_1_0_0_n_n : DotDims S64x1024 S10x1024 S64x10 where
  lhsContracting := [1]
  rhsContracting := [1]
  lhsNonContracting := [0]
  rhsNonContracting := [0]
  lhsBatch := []
  rhsBatch := []
  wf := dot_S64x1024_S10x1024_S64x10_1_1_0_0_n_n_wf
def dot_S64x10_S10x4096_S64x4096_1_0_0_1_n_n : DotDims S64x10 S10x4096 S64x4096 where
  lhsContracting := [1]
  rhsContracting := [0]
  lhsNonContracting := [0]
  rhsNonContracting := [1]
  lhsBatch := []
  rhsBatch := []
  wf := dot_S64x10_S10x4096_S64x4096_1_0_0_1_n_n_wf

abbrev win0_0 : Pipeline.Window sig grid0 :=
  Pipeline.Window.ofSpec (Memref.whole main_arg0) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096 : Shape := ⟨2, ![32, 4096]⟩
abbrev S10x1024 : Shape := ⟨2, ![10, 1024]⟩
abbrev S64x1024 : Shape := ⟨2, ![64, 1024]⟩
abbrev S64 : Shape := ⟨1, ![64]⟩
abbrev S_ : Shape := ⟨0, ![]⟩
abbrev S32x4096x1 : Shape := ⟨3, ![32, 4096, 1]⟩
abbrev S32x4096x1024 : Shape := ⟨3, ![32, 4096, 1024]⟩
abbrev S32x4096x64 : Shape := ⟨3, ![32, 4096, 64]⟩
abbrev S1x1x64 : Shape := ⟨3, ![1, 1, 64]⟩
abbrev S32x64x4096 : Shape := ⟨3, ![32, 64, 4096]⟩
abbrev S2048x4096 : Shape := ⟨2, ![2048, 4096]⟩
abbrev S1x2048x4096 : Shape := ⟨3, ![1, 2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S32x4096, .i32⟩
  | .hbm, ⟨1, _⟩ => ⟨S10x1024, .f32⟩
  | .hbm, ⟨2, _⟩ => ⟨S64x1024, .f32⟩
  | .hbm, ⟨3, _⟩ => ⟨S64, .f32⟩
  | .hbm, ⟨4, _⟩ => ⟨S_, .i32⟩
  | .hbm, ⟨5, _⟩ => ⟨S32x4096, .i32⟩
  | .hbm, ⟨6, _⟩ => ⟨S32x4096, .i1⟩
  | .hbm, ⟨7, _⟩ => ⟨S_, .i32⟩
  | .hbm, ⟨8, _⟩ => ⟨S32x4096, .i32⟩
  | .hbm, ⟨9, _⟩ => ⟨S32x4096, .i32⟩
  | .hbm, ⟨10, _⟩ => ⟨S32x4096, .i32⟩
  | .hbm, ⟨11, _⟩ => ⟨S32x4096x1, .i32⟩
  | .hbm, ⟨12, _⟩ => ⟨S32x4096x1024, .f32⟩
  | .hbm, ⟨13, _⟩ => ⟨S32x4096x64, .f32⟩
  | .hbm, ⟨14, _⟩ => ⟨S1x1x64, .f32⟩
  | .hbm, ⟨15, _⟩ => ⟨S32x4096x64, .f32⟩
  | .hbm, ⟨16, _⟩ => ⟨S32x4096x64, .f32⟩
  | .hbm, ⟨17, _⟩ => ⟨S32x64x4096, .f32⟩
  | .hbm, ⟨18, _⟩ => ⟨S2048x4096, .f32⟩
  | .hbm, ⟨19, _⟩ => ⟨S1x2048x4096, .f32⟩
  | _, _ => ⟨S32x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S64_S1x1x64_2 : S64.BroadcastsInDim S1x1x64 (![2] : Fin 1 → Fin S1x1x64.rank)
  bcast_S1x1x64_S32x4096x64_0_1_2 : S1x1x64.BroadcastsInDim S32x4096x64 (![0, 1, 2] : Fin 3 → Fin S32x4096x64.rank)
  transposes_S32x4096x64_S32x64x4096_0_2_1 : S32x4096x64.Transposes [0, 2, 1] S32x64x4096
  shapeCasts_S32x64x4096_S2048x4096 : S32x64x4096.ShapeCasts S2048x4096
  shapeCasts_S2048x4096_S1x2048x4096 : S2048x4096.ShapeCasts S1x2048x4096
  gather_S10x1024_S32x4096x1_S32x4096x1024_2_0_n_n_0_2_11024_wf : GatherDims.WF S10x1024 S32x4096x1 S32x4096x1024 [2] [0] [] [0] [] 2 ![1, 1024]
  dot_S32x4096x1024_S64x1024_S32x4096x64_2_1_01_0_n_n_wf : DotDims.WF S32x4096x1024 S64x1024 S32x4096x64 [2] [1] [0, 1] [0] [] []

variable [Facts₀]

def gather_S10x1024_S32x4096x1_S32x4096x1024_2_0_n_n_0_2_11024 : GatherDims S10x1024 S32x4096x1 S32x4096x1024 where
  offsetDims := [2]
  collapsedSliceDims := [0]
  operandBatchingDims := []
  startIndicesBatchingDims := []
  startIndexMap := [0]
  indexVectorDim := 2
  sliceSizes := ![1, 1024]
  wf := gather_S10x1024_S32x4096x1_S32x4096x1024_2_0_n_n_0_2_11024_wf
def dot_S32x4096x1024_S64x1024_S32x4096x64_2_1_01_0_n_n : DotDims S32x4096x1024 S64x1024 S32x4096x64 where
  lhsContracting := [2]
  rhsContracting := [1]
  lhsNonContracting := [0, 1]
  rhsNonContracting := [0]
  lhsBatch := []
  rhsBatch := []
  wf := dot_S32x4096x1024_S64x1024_S32x4096x64_2_1_01_0_n_n_wf

class Facts : Prop extends Facts₀ where

variable [Facts]
-- ==== Proof.IndexDomain.lean ====
/-
  The precondition, read back: besides the finiteness of the three float arrays it says that every entry of the
  index array, read as a signed integer, is at least 0. The printed predicate ends in the conjunction of the
  finiteness part with "all (indices ≥ 0)": a reduction by `and` over the whole array of the one-bit comparisons
  with the constant 0. If the conjunction is 1 its second operand is 1, and a reduction by `and` that came out 1
  met a 1 at every entry.
-/
import proofs.«429291_j19559281066709_3_alg».proof.Pre_finite_inputs
import Idealize.ShloMosaic.Lib.ReduceAll
import Idealize.ShloMosaic.Lib.ValueIdx

noncomputable section

namespace Cert.Pre_finite_inputs.IndexDomain

open Idealize.ShloMosaic Cert.Pre_finite_inputs

variable {F : FTy → Type} [FloatOps F] [Facts]

/-- Where the precondition holds, every index word compares "≥ 0" (signed) as true. -/
theorem idx_nonneg (idx : IVec S32x4096 32) (fp : FVec F S10x1024 .f32) (W : FVec F S64x1024 .f32) (b : FVec F S64 .f32)
    (h : fn (F := F) idx fp W b = fun _ => 1#1) (i : S32x4096.Idx) : IntOp.cmpi .sge (idx i) 0#32 = 1#1 := by
  haveI : Subsingleton S_.Idx := ⟨fun a b => funext fun d => d.elim0⟩
  have h0 := congrFun h ValueIdx.ix0
  dsimp only [fn, fn_part1] at h0
  have h1 := (IntOp.andi_eq_one.mp h0).2
  exact Host.reduce_andi_all _ _ _ _ _ h1 i

end Cert.Pre_finite_inputs.IndexDomain

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.RowSelect.lean ====
/-
  Selecting a table column with a one-hot matrix product, at the ideal values; free of any program.

  An index word w selects the table row `row w`: the word read as a signed integer, a negative one taken as 0, and the
  result capped at the last of the ten rows, 9. Two spellings of that row meet here:
  * the word-level clamp min(9, max(0, w)) taken with signed comparisons IS the word of `row w`, for every w;
  * a lookup that first wraps a negative index (w + 10 when w < 0) agrees with it as soon as w is not negative.
  The one-hot column of a word w has entry 1 at `row w` and 0 elsewhere (the comparison of the coordinate with the
  clamped word, widened and converted), so the product of a 64×10 table by the 10×4096 one-hot matrix of a row of
  words, accumulated into zero, has at (d, l) the single term T(d, row w_l): x · 0 = 0 and x · 1 = x hold for every
  extended real, and a sum with one nonzero term is that term. No finiteness is used.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StableHlo.Predicate
import proofs.«429291_j19559281066709_3_alg».proof.Proof.LibPlainMatmul

noncomputable section

namespace RowSelect

open Idealize.ShloMosaic Idealize.ShloMosaic.ValueIdx

/-- The table row an index word selects: the word read signed, below zero taken as 0, capped at 9. -/
def row (w : BitVec 32) : Fin 10 := ⟨min w.toInt.toNat 9, by omega⟩

/-- The signed clamp of a word into [0, 9] is the word of the row it selects, whatever the word. -/
theorem clamp_word (w : BitVec 32) : IntOp.minsi 9#32 (IntOp.maxsi 0#32 w) = BitVec.ofNat 32 (row w).val := by
  unfold IntOp.minsi IntOp.maxsi row
  simp only [BitVec.slt_iff_toInt_lt]
  have h := BitVec.toInt_eq_toNat_cond w
  have hlt := w.isLt
  apply BitVec.eq_of_toNat_eq
  split_ifs at * <;> simp at * <;> omega

/-- Two rows have the same word only if they are the same row. -/
theorem word_inj (c r : Fin 10) : BitVec.ofNat 32 c.val = BitVec.ofNat 32 r.val ↔ c = r := by
  constructor
  · intro h
    have h' := congrArg BitVec.toNat h
    simp only [BitVec.toNat_ofNat] at h'
    have hc := c.isLt; have hr := r.isLt
    exact Fin.ext (by omega)
  · rintro rfl; rfl

/-- A word that is not negative is left alone by the wrap "add 10 when below zero". -/
theorem wrap_of_nonneg (w : BitVec 32) (h : IntOp.cmpi .sge w 0#32 = 1#1) :
    Scalar.select (IntOp.cmpi .slt w 0#32) (IntOp.addi w 10#32) w = w := by
  have hge : (0#32 : BitVec 32).sle w = true := (StableHlo.Predicate.ofBool_eq_one_iff _).mp h
  have hz : (0#32 : BitVec 32).toInt = 0 := by decide
  have hlt : w.slt 0#32 = false := by
    rw [Bool.eq_false_iff]
    intro hs
    rw [BitVec.slt_iff_toInt_lt] at hs
    rw [BitVec.sle_iff_toInt_le] at hge
    omega
  have hc : IntOp.cmpi .slt w 0#32 = 0#1 := by
    show BitVec.ofBool (w.slt 0#32) = 0#1
    rw [hlt]; rfl
  rw [hc]
  exact select_zero _ _

/-- One entry of a one-hot column: the comparison of two words, widened and converted, is 1 where they agree, else 0. -/
theorem onehot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  unfold IntOp.cmpi
  by_cases hab : a = b
  · subst hab; simp
  · rw [if_neg hab]
    have : (a == b) = false := by simpa using hab
    simp [this]

/-- A sum over the ten rows against a one-hot column keeps the one selected term. -/
theorem sum_onehot (A : Fin 10 → EReal) (r : Fin 10) : ∑ c : Fin 10, A c * (if c = r then (1 : EReal) else 0) = A r := by
  rw [Finset.sum_eq_single r]
  · rw [if_pos rfl, mul_one]
  · intro c _ hc; rw [if_neg hc, mul_zero]
  · intro h; exact absurd (Finset.mem_univ r) h

/-! ## The one-hot matrix of a row of words, and the table's product with it -/

abbrev T64x10 : Shape := ⟨2, ![64, 10]⟩
abbrev T10x4096 : Shape := ⟨2, ![10, 4096]⟩
abbrev T1x4096 : Shape := ⟨2, ![1, 4096]⟩
abbrev T64x4096 : Shape := ⟨2, ![64, 4096]⟩

/-- Entry (c, l) of the one-hot matrix of a row of words: the row coordinate compared with the l-th word clamped into
    [0, 9], widened and converted: 1 where c is the row that word selects, else 0. -/
theorem onehot_col_entry (hb : T1x4096.Broadcasts T10x4096) (hi : T10x4096.Iotas .tc 32 [0]) (hlt : 1 < 32)
    (ws : IVec T1x4096 32) (c : Fin 10) (l : Fin 4096) :
    (sitofp .f32 (extui 32 (cmpi .eq (iota .tc T10x4096 32 [0] hi)
        (broadcastTo T10x4096 (minsi (broadcast T1x4096 9#32) (maxsi (broadcast T1x4096 0#32) ws)) hb)) hlt)
      : FVec Ideal T10x4096 .f32) (ix2 c l)
      = if c = row (ws (ix2 0 l)) then (1 : EReal) else 0 := by
  rw [sitofp_apply, extui_apply]
  show FloatOps.sitofp .f32 ((IntOp.cmpi .eq (iota .tc T10x4096 32 [0] hi (ix2 c l))
      (broadcastTo T10x4096 (minsi (broadcast T1x4096 9#32) (maxsi (broadcast T1x4096 0#32) ws)) hb (ix2 c l))).setWidth 32) = _
  rw [iota_single_apply, broadcastTo_apply _ hb (ix2 c l) (ix2 0 l) (fun a => by
    match a with
    | ⟨0, _⟩ => rfl
    | ⟨1, _⟩ => rfl)]
  show (FloatOps.sitofp (F := Ideal) .f32 ((IntOp.cmpi .eq (BitVec.ofNat 32 c.val)
      (IntOp.minsi 9#32 (IntOp.maxsi 0#32 (ws (ix2 0 l))))).setWidth 32) : EReal) = _
  rw [clamp_word, onehot_entry]
  exact if_congr (word_inj c _) rfl rfl

/-- THE SELECTION: the 64×10 table times the 10×4096 one-hot matrix of a row of words, into zero, has at (d, l) the
    table's entry in row d and in the column the l-th word selects. -/
theorem onehot_matmul_apply (D : DotDims T64x10 T10x4096 T64x4096) (hD : D = DotDims.plain 64 10 4096)
    (prec : Option ContractPrecision) (hb : T1x4096.Broadcasts T10x4096) (hi : T10x4096.Iotas .tc 32 [0]) (hlt : 1 < 32)
    (tt : FVec Ideal T64x10 .f32) (ws : IVec T1x4096 32) (d : Fin 64) (l : Fin 4096) :
    matmul (F := Ideal) D prec tt
        (sitofp .f32 (extui 32 (cmpi .eq (iota .tc T10x4096 32 [0] hi)
          (broadcastTo T10x4096 (minsi (broadcast T1x4096 9#32) (maxsi (broadcast T1x4096 0#32) ws)) hb)) hlt))
        (constant T64x4096 .f32 0x00000000#32) (ix2 d l)
      = tt (ix2 d (row (ws (ix2 0 l)))) := by
  rw [PlainMatmul.matmul_zero_apply_of_eq D hD]
  refine (Finset.sum_congr rfl fun c _ => ?_).trans (sum_onehot (fun c => tt (ix2 d c)) (row (ws (ix2 0 l))))
  exact congrArg (fun z : EReal => (tt (ix2 d c) : EReal) * z) (onehot_col_entry hb hi hlt ws c l)

end RowSelect

end
-- ==== Proof.Projected.lean ====
/-
  The result, stated once as a function of the four argument arrays; free of any program.

  With fp the 10×1024 fingerprint table, W the 64×1024 projection and b the 64 biases, put
      T(d, v) = (Σ_f W(d, f) · fp(v, f)) + b(d)            (the projected table, 64×10).
  The 2048×4096 result has at row r = 64·s + d and column l the entry T(d, row (idx(s, l))), where `row` is the table
  row an index word selects; the final array is that one under a leading axis of size 1.
-/
import proofs.«429291_j19559281066709_3_alg».proof.Proof.RowSelect

noncomputable section

namespace Projected

open Idealize.ShloMosaic Idealize.ShloMosaic.ValueIdx RowSelect

abbrev A32x4096 : Shape := ⟨2, ![32, 4096]⟩
abbrev A10x1024 : Shape := ⟨2, ![10, 1024]⟩
abbrev A64x1024 : Shape := ⟨2, ![64, 1024]⟩
abbrev A64 : Shape := ⟨1, ![64]⟩
abbrev A2048x4096 : Shape := ⟨2, ![2048, 4096]⟩
abbrev A1x2048x4096 : Shape := ⟨3, ![1, 2048, 4096]⟩

/-- The projected table: T(d, v) = (Σ_f W(d, f) · fp(v, f)) + b(d). -/
def table (fp : FVec Ideal A10x1024 .f32) (W : FVec Ideal A64x1024 .f32) (b : FVec Ideal A64 .f32)
    (d : Fin 64) (v : Fin 10) : EReal :=
  (∑ f : Fin 1024, W (ix2 d f) * fp (ix2 v f)) + b (ix1 d)

/-- Entry (r, l) of the 2048×4096 result: with r = 64·s + d, the table's entry T(d, ·) in the column idx(s, l) selects. -/
def selected (idx : IVec A32x4096 32) (fp : FVec Ideal A10x1024 .f32) (W : FVec Ideal A64x1024 .f32)
    (b : FVec Ideal A64 .f32) (r : Fin 2048) (l : Fin 4096) : EReal :=
  table fp W b ⟨r.val % 64, Nat.mod_lt _ (by decide)⟩
    (row (idx (ix2 (⟨r.val / 64, by have := r.isLt; omega⟩ : Fin 32) l)))

/-- The result array, [1, 2048, 4096]. -/
def result (idx : IVec A32x4096 32) (fp : FVec Ideal A10x1024 .f32) (W : FVec Ideal A64x1024 .f32)
    (b : FVec Ideal A64 .f32) : FVec Ideal A1x2048x4096 .f32 :=
  fun i => selected idx fp W b ⟨(i 1).val, (i 1).isLt⟩ ⟨(i 2).val, (i 2).isLt⟩

end Projected

end
-- ==== Proof.RefValue.lean ====
/-
  The reference, entry by entry, is the selected entry of the projected table.

  Read from the last operation back, the result at (0, r, l) is — through the two reshapes and the transpose — the
  sum-plus-bias at (s, l, d) with r = 64·s + d: Σ_f emb(s, l, f) · W(d, f) + b(d), where emb = fp[indices] is a gather
  of whole rows of the fingerprint table. The gather reads row `min (toNat (toInt w)) 9` of the table, w being the
  index word AFTER the wrap "w + 10 when w < 0". Where the index is not negative the wrap does nothing, the row is
  `row w` of the index word itself, and the sum is the table entry T(d, row w) with the two factors of each product
  exchanged: commutativity of the product of extended reals, term by term.
-/
import proofs.«429291_j19559281066709_3_alg».proof.Proof.Gen.ReferenceIdeal.Read
import proofs.«429291_j19559281066709_3_alg».proof.Proof.Projected
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx RowSelect

/-- The start-indices index (s, l, 0) of the gathered element (s, l, f). -/
abbrev startAt (j : S32x4096x1024.Idx) : S32x4096x1.Idx := fun a => match a with
  | ⟨0, _⟩ => ⟨(j 0).val, (j 0).isLt⟩
  | ⟨1, _⟩ => ⟨(j 1).val, (j 1).isLt⟩
  | ⟨2, _⟩ => ⟨0, Nat.one_pos⟩

/-- THE GATHER OF WHOLE ROWS, read at (s, l, f): row `row w` (= min (toNat (toInt w)) 9) of the table at column f, w the
    start index at (s, l, 0) — the start is read signed and clamped so that the one-row slice fits the ten rows. -/
theorem gather_rows_apply {α : Type} (x : S10x1024.Idx → α) (si : IVec S32x4096x1 32) (j : S32x4096x1024.Idx) :
    Host.gather gather_S10x1024_S32x4096x1_S32x4096x1024_2_0_n_n_0_2_11024 x si j
      = x (ix2 (row (si (startAt j))) (⟨(j 2).val, (j 2).isLt⟩ : Fin 1024)) := by
  unfold Host.gather
  congr 1
  funext a
  refine Fin.ext ?_
  match a with
  | ⟨0, _⟩ =>
    show gather_S10x1024_S32x4096x1_S32x4096x1024_2_0_n_n_0_2_11024.start j si 0
        + gather_S10x1024_S32x4096x1_S32x4096x1024_2_0_n_n_0_2_11024.batchCoord j 0
        + gather_S10x1024_S32x4096x1_S32x4096x1024_2_0_n_n_0_2_11024.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S10x1024.rank) ∈ gather_S10x1024_S32x4096x1_S32x4096x1024_2_0_n_n_0_2_11024.startIndexMap from List.mem_singleton.mpr rfl)]
    have hsi : gather_S10x1024_S32x4096x1_S32x4096x1024_2_0_n_n_0_2_11024.siIdx j
        ⟨List.idxOf (0 : Fin S10x1024.rank) gather_S10x1024_S32x4096x1_S32x4096x1024_2_0_n_n_0_2_11024.startIndexMap,
          List.idxOf_lt_length_iff.2 (List.mem_singleton.mpr rfl)⟩ = startAt j := by
      funext b; refine Fin.ext ?_
      match b with
      | ⟨0, _⟩ => rfl
      | ⟨1, _⟩ => rfl
      | ⟨2, _⟩ => rfl
    rw [hsi]
    rfl
  | ⟨1, _⟩ =>
    show gather_S10x1024_S32x4096x1_S32x4096x1024_2_0_n_n_0_2_11024.start j si 1
        + gather_S10x1024_S32x4096x1_S32x4096x1024_2_0_n_n_0_2_11024.batchCoord j 1
        + gather_S10x1024_S32x4096x1_S32x4096x1024_2_0_n_n_0_2_11024.offCoord j 1 = (j 2).val
    rw [GatherDims.batchCoord_eq_zero _ _ _ List.not_mem_nil]
    unfold GatherDims.start
    rw [dif_neg (show ¬(1 : Fin S10x1024.rank) ∈ gather_S10x1024_S32x4096x1_S32x4096x1024_2_0_n_n_0_2_11024.startIndexMap by decide)]
    unfold GatherDims.offCoord
    rw [dif_pos (show (1 : Fin S10x1024.rank) ∈ gather_S10x1024_S32x4096x1_S32x4096x1024_2_0_n_n_0_2_11024.sKept by decide)]
    show 0 + 0 + (j 2).val = (j 2).val
    omega

/-- The reference's last stage at (0, r, l), where no index is negative: the selected entry of the projected table.
    The chain of layout operations leads to the sum-plus-bias at (r / 64, l, r % 64); the gather's start index there
    is the index word itself (the wrap leaves a word that is not negative alone), so the gathered row is `row` of it;
    and each product fp · W is W · fp. -/
theorem result_eq (x0 : (⟨S32x4096, .i32⟩ : BufTy).Contents (Elt Ideal)) (x1 : (⟨S10x1024, .f32⟩ : BufTy).Contents (Elt Ideal))
    (x2 : (⟨S64x1024, .f32⟩ : BufTy).Contents (Elt Ideal)) (x3 : (⟨S64, .f32⟩ : BufTy).Contents (Elt Ideal))
    (hnn : ∀ i : S32x4096.Idx, IntOp.cmpi .sge (x0 i) 0#32 = 1#1) :
    val_main_v13 (F := Ideal) x0 x1 x2 x3 = Projected.result x0 x1 x2 x3 := by
  funext i
  rw [val_main_v13_apply, val_main_v12_apply, val_main_v11_apply, val_main_v10_apply, val_main_v7_apply, val_main_v9_apply,
    val_main_v8_apply]
  have h0 : (i 0).val < 1 := (i 0).isLt
  have h1 : (i 1).val < 2048 := (i 1).isLt
  have h2 : (i 2).val < 4096 := (i 2).isLt
  unfold Projected.result Projected.selected Projected.table
  show (∑ k : Fin 1024, val_main_v6 (F := Ideal) x0 x1 (lidx_main_v7 (idx_main_v11 (idx_main_v12 (idx_main_v13 i))) k)
        * x2 (ridx_main_v7 (idx_main_v11 (idx_main_v12 (idx_main_v13 i))) k))
      + x3 (idx_main_v8 (idx_main_v9 (idx_main_v11 (idx_main_v12 (idx_main_v13 i))))) = _
  -- the coordinates (s, l, d) the layout chain leads to
  have I0 : ((idx_main_v11 (idx_main_v12 (idx_main_v13 i))) 0).val = (i 1).val / 64 := by
    show ((((i 0).val * 2048 + (i 1).val) * 4096 + (i 2).val) / 4096 * 4096 + (((i 0).val * 2048 + (i 1).val) * 4096 + (i 2).val) % 4096) / 262144 = _
    omega
  have I1 : ((idx_main_v11 (idx_main_v12 (idx_main_v13 i))) 1).val = (i 2).val := by
    show ((((i 0).val * 2048 + (i 1).val) * 4096 + (i 2).val) / 4096 * 4096 + (((i 0).val * 2048 + (i 1).val) * 4096 + (i 2).val) % 4096) % 4096 = _
    omega
  have I2 : ((idx_main_v11 (idx_main_v12 (idx_main_v13 i))) 2).val = (i 1).val % 64 := by
    show ((((i 0).val * 2048 + (i 1).val) * 4096 + (i 2).val) / 4096 * 4096 + (((i 0).val * 2048 + (i 1).val) * 4096 + (i 2).val) % 4096) / 4096 % 64 = _
    omega
  -- the gathered element: the wrap leaves the index word alone
  have hv6 : ∀ J : S32x4096x1024.Idx, val_main_v6 (F := Ideal) x0 x1 J
      = x1 (ix2 (row (x0 (idx_main_v5 (startAt J)))) (⟨(J 2).val, (J 2).isLt⟩ : Fin 1024)) := by
    intro J
    unfold val_main_v6
    rw [gather_rows_apply, val_main_v5_apply, val_main_v4_apply, val_main_v1_apply, val_main_v3_apply, val_main_v0_apply,
      val_main_v2_apply, val_main_c_apply, val_main_c_0_apply, wrap_of_nonneg _ (hnn _)]
  congr 1
  · refine Finset.sum_congr rfl fun k _ => ?_
    rw [hv6, mul_comm]
    congr 1
    · refine congrArg x2 (funext fun a => Fin.ext ?_)
      match a with
      | ⟨0, _⟩ => exact I2
      | ⟨1, _⟩ => rfl
    · have hZ : idx_main_v5 (startAt (lidx_main_v7 (idx_main_v11 (idx_main_v12 (idx_main_v13 i))) k))
          = ix2 (⟨(⟨(i 1).val, (i 1).isLt⟩ : Fin 2048).val / 64, by show (i 1).val / 64 < 32; omega⟩ : Fin 32) (⟨(i 2).val, (i 2).isLt⟩ : Fin 4096) :=
        funext fun a => Fin.ext (by
          match a with
          | ⟨0, _⟩ => exact I0
          | ⟨1, _⟩ => exact I1)
      rw [hZ]
  · refine congrArg x3 (funext fun a => Fin.ext ?_)
    match a with
    | ⟨0, _⟩ => exact I2

end Cert.ReferenceIdeal.RefValue

end
-- ==== Proof.KernelBlock.lean ====
/-
  What the kernel body leaves in its 512×4096 output block.

  The body runs eight times the same computation, once per row k of its 8×4096 block of index words: it clamps the
  row's words into [0, 9], builds the 10×4096 one-hot matrix of the clamped words, multiplies the 64×10 table block by
  it into zero, and stores the 64×4096 product at rows 64·k … 64·k + 63 of the output block. By the selection law the
  product's entry (d, l) is the table block's entry (d, row w) for w the l-th word of row k. The eight stores tile the
  block, so the block's entry (y0, y1), with y0 = 64·k + d, is T(d, row (words(k, y1))): one function of the block
  index, whichever store wrote it.
-/
import proofs.«429291_j19559281066709_3_alg».proof.Proof.Gen.KernelIdeal.Frame
import proofs.«429291_j19559281066709_3_alg».proof.Proof.RowSelect
import Idealize.ShloMosaic.Lib.Pipeline.Value
import Idealize.ShloMosaic.Lib.ValueIdx

set_option maxRecDepth 16384

noncomputable section

namespace Cert.KernelIdeal.Block

open Cert.KernelIdeal Cert.KernelIdeal.Gen
open Idealize.ShloMosaic Idealize.ShloMosaic.TcCoe Idealize.ShloMosaic.ValueIdx RowSelect

theorem hz : (![0, 0] : Fin 2 → Nat) = fun _ => 0 := funext fun a => by fin_cases a <;> rfl

/-- The body's matrix product is the plain 64×10 by 10×4096 one. -/
theorem dot_plain : dot_S64x10_S10x4096_S64x4096_1_0_0_1_n_n = DotDims.plain 64 10 4096 := rfl

/-- One store's payload at (d, l): the table block's entry in row d and in the column the l-th word selects. -/
theorem pay_apply (v0 : Vec Ideal S64x10 .f32) (ws : Vec Ideal S1x4096 .i32) (d : Fin 64) (l : Fin 4096) :
    k0_pay4 (F := Ideal) v0 ws (ix2 d l) = v0 (ix2 d (row (ws (ix2 0 l)))) := by
  unfold k0_pay4 k0_pay3
  refine (onehot_matmul_apply _ dot_plain _ _ _ _ _ ws d l).trans ?_
  rw [shapeCast_self]

/-- The block the body leaves, entry by entry: at (y0, y1) with y0 = 64·k + d, the table block's entry (d, ·) in the
    column that word (k, y1) of the index block selects. -/
def blockFn (x0 : Vec Ideal S8x4096 .i32) (x1 : Vec Ideal S64x10 .f32) : Vec Ideal S512x4096 .f32 :=
  fun y => x1 (ix2 (⟨(y 0).val % 64, Nat.mod_lt _ (by decide)⟩ : Fin 64)
    (row (x0 (ix2 (⟨(y 0).val / 64, by have h : (y 0).val < 512 := (y 0).isLt; omega⟩ : Fin 8)
      (⟨(y 1).val, (y 1).isLt⟩ : Fin 4096)))))

/-- One store: its payload at a local index is `blockFn` at the block index its rectangle gives that local index. -/
theorem piece_apply (oI oO : Nat) (hO : oO = 64 * oI) (hI : oI < 8)
    (inbI : ∀ a, (![oI, 0] : Fin 2 → Nat) a + S1x4096.size a ≤ S8x4096.size a)
    (inbO : ∀ a, (![oO, 0] : Fin 2 → Nat) a + S64x4096.size a ≤ S512x4096.size a)
    (x0 : Vec Ideal S8x4096 .i32) (x1 : Vec Ideal S64x10 .f32) (x : S64x4096.Idx) :
    k0_pay4 (F := Ideal) (View.ld x1 r0_0) (View.ld x0 (Rect.unit (s := S8x4096) ![oI, 0] S1x4096.size inbI)) x
      = blockFn x0 x1 ((Rect.unit (s := S512x4096) ![oO, 0] S64x4096.size inbO).emb x) := by
  obtain ⟨p, q, rfl⟩ : ∃ (p : Fin 64) (q : Fin 4096), x = ix2 p q := ⟨x 0, x 1, eq_ix2 x⟩
  rw [pay_apply, View.ld_unit_zero (S := S64x10) hz]
  unfold blockFn
  have hp := p.isLt
  have hq := q.isLt
  have e0 : ((Rect.unit (s := S512x4096) ![oO, 0] S64x4096.size inbO).emb (ix2 p q) 0).val = oO + p.val := by
    simp only [Rect.emb_apply, Rect.off_unit, Rect.stride_unit, Nat.one_mul]; rfl
  have e1 : ((Rect.unit (s := S512x4096) ![oO, 0] S64x4096.size inbO).emb (ix2 p q) 1).val = q.val := by
    simp only [Rect.emb_apply, Rect.off_unit, Rect.stride_unit, Nat.one_mul]
    show 0 + q.val = q.val
    omega
  have eI : View.ld x0 (Rect.unit (s := S8x4096) ![oI, 0] S1x4096.size inbI) (ix2 0 q) = x0 (ix2 (⟨oI, hI⟩ : Fin 8) q) := by
    show x0 _ = x0 _
    congr 1
    funext a
    apply Fin.ext
    match a with
    | ⟨0, _⟩ =>
      simp only [LoadRect.idx_apply, Rect.emb_apply, Rect.off_unit, Rect.stride_unit, Nat.one_mul]
      show oI + 0 = oI
      omega
    | ⟨1, _⟩ =>
      simp only [LoadRect.idx_apply, Rect.emb_apply, Rect.off_unit, Rect.stride_unit, Nat.one_mul]
      show 0 + q.val = q.val
      omega
  rw [eI]
  have hA : (⟨((Rect.unit (s := S512x4096) ![oO, 0] S64x4096.size inbO).emb (ix2 p q) 0).val % 64, Nat.mod_lt _ (by decide)⟩ : Fin 64) = p :=
    Fin.ext (by show _ % 64 = p.val; omega)
  have hB : ∀ hlt, (⟨((Rect.unit (s := S512x4096) ![oO, 0] S64x4096.size inbO).emb (ix2 p q) 0).val / 64, hlt⟩ : Fin 8) = ⟨oI, hI⟩ :=
    fun _ => Fin.ext (by show _ / 64 = oI; omega)
  rw [hA, hB]
  exact congrArg (fun z : Fin 4096 => x1 (ix2 p (row (x0 (ix2 (⟨oI, hI⟩ : Fin 8) z))))) (Fin.ext e1.symm)

/-- THE BLOCK: the canon of the eight stores is `blockFn` — every store's payload is `blockFn` restricted to the
    store's rows, and the stores cover the block. -/
theorem out_eq (x0 : Vec Ideal S8x4096 .i32) (x1 : Vec Ideal S64x10 .f32) : out0_2 (F := Ideal) x0 x1 = blockFn x0 x1 := by
  funext y
  unfold out0_2
  refine View.canon_apply_of_pieces (blockFn x0 x1) _ ?_ y (cover0_2 _ _ _ _ _ _ _ _ y)
  intro pc hpc x
  simp only [List.mem_cons, List.mem_nil_iff, or_false] at hpc
  rcases hpc with rfl | rfl | rfl | rfl | rfl | rfl | rfl | rfl
  · show k0_pay4 (F := Ideal) (View.ld x1 r0_0) (View.ld x0 r0_15) x = blockFn x0 x1 (r0_16.emb x)
    exact piece_apply 7 448 rfl (by decide) _ _ x0 x1 x
  · show k0_pay4 (F := Ideal) (View.ld x1 r0_0) (View.ld x0 r0_13) x = blockFn x0 x1 (r0_14.emb x)
    exact piece_apply 6 384 rfl (by decide) _ _ x0 x1 x
  · show k0_pay4 (F := Ideal) (View.ld x1 r0_0) (View.ld x0 r0_11) x = blockFn x0 x1 (r0_12.emb x)
    exact piece_apply 5 320 rfl (by decide) _ _ x0 x1 x
  · show k0_pay4 (F := Ideal) (View.ld x1 r0_0) (View.ld x0 r0_9) x = blockFn x0 x1 (r0_10.emb x)
    exact piece_apply 4 256 rfl (by decide) _ _ x0 x1 x
  · show k0_pay4 (F := Ideal) (View.ld x1 r0_0) (View.ld x0 r0_7) x = blockFn x0 x1 (r0_8.emb x)
    exact piece_apply 3 192 rfl (by decide) _ _ x0 x1 x
  · show k0_pay4 (F := Ideal) (View.ld x1 r0_0) (View.ld x0 r0_5) x = blockFn x0 x1 (r0_6.emb x)
    exact piece_apply 2 128 rfl (by decide) _ _ x0 x1 x
  · show k0_pay4 (F := Ideal) (View.ld x1 r0_0) (View.ld x0 r0_3) x = blockFn x0 x1 (r0_4.emb x)
    exact piece_apply 1 64 rfl (by decide) _ _ x0 x1 x
  · show k0_pay4 (F := Ideal) (View.ld x1 r0_0) (View.ld x0 r0_1) x = blockFn x0 x1 (r0_2.emb x)
    exact piece_apply 0 0 rfl (by decide) _ _ x0 x1 x

end Cert.KernelIdeal.Block

end
-- ==== Proof.KernelValue.lean ====
/-
  The kernel's run, read: the result array is the selected entry of the projected table.

  * Before the region the host lines compute the 64×10 table T = W · fpᵀ + b (a product contracted over the 1024
    features, plus the bias broadcast along the ten columns): entry (d, v) is Σ_f W(d, f) · fp(v, f) + b(d).
  * The region runs the body at four points; point t reads rows 8t … 8t + 7 of the index array and the whole table and
    writes rows 512t … 512t + 511 of the 2048×4096 output. What a point writes back is the block of ONE function of
    the array index: at (r, l), with r = 64·s + d, the table entry T(d, row (idx(s, l))) — the body's block function
    read through the point's rectangles (512t + y0 = 64·(8t + y0 / 64) + y0 % 64). The four blocks tile the array, so
    the array ends holding that function.
  * After the region one reshape puts a leading axis of size 1 in front: entry (0, r, l) is the array's entry (r, l).
-/
import proofs.«429291_j19559281066709_3_alg».proof.Proof.Gen.KernelIdeal.Frame
import proofs.«429291_j19559281066709_3_alg».proof.Proof.KernelBlock
import proofs.«429291_j19559281066709_3_alg».proof.Proof.Projected
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem RowSelect
open Idealize.ShloMosaic.Pipeline (Dat)

variable (m : (ℓ : Loc nD τ sig) → Buf (Elt Ideal) ℓ) (ρ : Dev nD → PrngReg)

/-! ## The table the host lines before the region compute -/

theorem lhs_tab_0 (i : S64x10.Idx) (q : dot_S64x1024_S10x1024_S64x10_1_1_0_0_n_n.contr.Idx) :
    (dot_S64x1024_S10x1024_S64x10_1_1_0_0_n_n.lhsIdx i q 0).val = (i 0).val := by
  unfold DotDims.lhsIdx
  rw [dif_neg (show ¬(0 : Fin S64x1024.rank) ∈ dot_S64x1024_S10x1024_S64x10_1_1_0_0_n_n.lhsBatch by decide), dif_pos (show (0 : Fin S64x1024.rank) ∈ dot_S64x1024_S10x1024_S64x10_1_1_0_0_n_n.lhsNonContracting by decide)]
  rfl
theorem lhs_tab_1 (i : S64x10.Idx) (q : dot_S64x1024_S10x1024_S64x10_1_1_0_0_n_n.contr.Idx) :
    (dot_S64x1024_S10x1024_S64x10_1_1_0_0_n_n.lhsIdx i q 1).val = (q ⟨0, by decide⟩).val :=
  dot_S64x1024_S10x1024_S64x10_1_1_0_0_n_n.lhsIdx_val_of_single rfl i q
theorem rhs_tab_0 (i : S64x10.Idx) (q : dot_S64x1024_S10x1024_S64x10_1_1_0_0_n_n.contr.Idx) :
    (dot_S64x1024_S10x1024_S64x10_1_1_0_0_n_n.rhsIdx i q 0).val = (i 1).val := by
  unfold DotDims.rhsIdx
  rw [dif_neg (show ¬(0 : Fin S10x1024.rank) ∈ dot_S64x1024_S10x1024_S64x10_1_1_0_0_n_n.rhsBatch by decide), dif_pos (show (0 : Fin S10x1024.rank) ∈ dot_S64x1024_S10x1024_S64x10_1_1_0_0_n_n.rhsNonContracting by decide)]
  rfl
theorem rhs_tab_1 (i : S64x10.Idx) (q : dot_S64x1024_S10x1024_S64x10_1_1_0_0_n_n.contr.Idx) :
    (dot_S64x1024_S10x1024_S64x10_1_1_0_0_n_n.rhsIdx i q 1).val = (q ⟨0, by decide⟩).val :=
  dot_S64x1024_S10x1024_S64x10_1_1_0_0_n_n.rhsIdx_val_of_single rfl i q

/-- The host product W · fpᵀ at (d, v): the sum over the 1024 features of W(d, f) · fp(v, f). -/
theorem dot_tab_apply (W : FVec Ideal S64x1024 .f32) (fp : FVec Ideal S10x1024 .f32) (d : Fin 64) (v : Fin 10) :
    Host.dotGeneral (F := Ideal) dot_S64x1024_S10x1024_S64x10_1_1_0_0_n_n (some .fp32) W fp (ix2 d v)
      = ∑ f : Fin 1024, W (ix2 d f) * fp (ix2 v f) := by
  simp only [Host.dotGeneral]
  rw [Ideal.dotGeneral_apply, ← Equiv.sum_comp (contrEquiv1 dot_S64x1024_S10x1024_S64x10_1_1_0_0_n_n 1024 rfl rfl).symm]
  refine Finset.sum_congr rfl fun k _ => ?_
  have hk := contrEquiv1_symm_val dot_S64x1024_S10x1024_S64x10_1_1_0_0_n_n 1024 rfl rfl k
  have el : dot_S64x1024_S10x1024_S64x10_1_1_0_0_n_n.lhsIdx (ix2 d v) ((contrEquiv1 dot_S64x1024_S10x1024_S64x10_1_1_0_0_n_n 1024 rfl rfl).symm k) = ix2 d k := funext fun a => Fin.ext (by
    match a with
    | ⟨0, _⟩ => exact lhs_tab_0 _ _
    | ⟨1, _⟩ => exact (lhs_tab_1 _ _).trans hk)
  have er : dot_S64x1024_S10x1024_S64x10_1_1_0_0_n_n.rhsIdx (ix2 d v) ((contrEquiv1 dot_S64x1024_S10x1024_S64x10_1_1_0_0_n_n 1024 rfl rfl).symm k) = ix2 v k := funext fun a => Fin.ext (by
    match a with
    | ⟨0, _⟩ => exact rhs_tab_0 _ _
    | ⟨1, _⟩ => exact (rhs_tab_1 _ _).trans hk)
  rw [el, er]

/-- The bias broadcast to a column and then along the ten columns, at (d, v): b(d). -/
theorem bias_tab_apply {α : Type} (b : S64.Idx → α) (d : Fin 64) (v : Fin 10) :
    broadcastInDim S64x10 ![0, 1] bcast_S64x1_S64x10_0_1 (broadcastInDim S64x1 ![0] bcast_S64_S64x1_0 b) (ix2 d v) = b (ix1 d) := by
  rw [broadcastInDim_apply _ bcast_S64x1_S64x10_0_1 _ (ix2 d v) (ix2 d (0 : Fin 1)) (fun a => by
      match a with
      | ⟨0, _⟩ => show d.val = if (64 : Nat) = 1 then 0 else d.val; rw [if_neg (by decide)]
      | ⟨1, _⟩ => show 0 = if (1 : Nat) = 1 then 0 else v.val; rw [if_pos rfl]),
    broadcastInDim_apply _ bcast_S64_S64x1_0 b (ix2 d (0 : Fin 1)) (ix1 d) (fun a => by
      match a with
      | ⟨0, _⟩ => show d.val = if (64 : Nat) = 1 then 0 else d.val; rw [if_neg (by decide)])]

/-- THE TABLE as the region finds it: entry (d, v) is Σ_f W(d, f) · fp(v, f) + b(d) of the argument arrays. -/
theorem table_apply (c : Dev nD) (d : Fin 64) (v : Fin 10) :
    (V m c main_v3 : S64x10.Idx → EReal) (ix2 d v)
      = Projected.table (m ((c : Thread nD τ).loc main_arg1)) (m ((c : Thread nD τ).loc main_arg2)) (m ((c : Thread nD τ).loc main_arg3)) d v := by
  have e : (V m c main_v3 : S64x10.Idx → EReal)
      = addf (Host.dotGeneral (F := Ideal) (φ₁ := .f32) (φ₂ := .f32) dot_S64x1024_S10x1024_S64x10_1_1_0_0_n_n (some .fp32) (m ((c : Thread nD τ).loc main_arg2) : FVec Ideal S64x1024 .f32) (m ((c : Thread nD τ).loc main_arg1) : FVec Ideal S10x1024 .f32))
          (broadcastInDim S64x10 ![0, 1] bcast_S64x1_S64x10_0_1 (broadcastInDim S64x1 ![0] bcast_S64_S64x1_0 (m ((c : Thread nD τ).loc main_arg3) : FVec Ideal S64 .f32))) := by
    show StableHlo.after hostOps0 (fun b => m (c, b)) (Proc.devRef .tc main_v3) = _
    after_results
  rw [e]
  show (Host.dotGeneral (F := Ideal) (φ₁ := .f32) (φ₂ := .f32) dot_S64x1024_S10x1024_S64x10_1_1_0_0_n_n (some .fp32) (m ((c : Thread nD τ).loc main_arg2) : FVec Ideal S64x1024 .f32) (m ((c : Thread nD τ).loc main_arg1) : FVec Ideal S10x1024 .f32) (ix2 d v) : EReal)
      + broadcastInDim S64x10 ![0, 1] bcast_S64x1_S64x10_0_1 (broadcastInDim S64x1 ![0] bcast_S64_S64x1_0 (m ((c : Thread nD τ).loc main_arg3) : FVec Ideal S64 .f32)) (ix2 d v) = _
  rw [dot_tab_apply, bias_tab_apply]
  rfl

/-! ## The array after the region -/

/-- The 2048×4096 array the region leaves, from the table and the index array as the region finds them: at (r, l),
    with r = 64·s + d, the table's entry (d, ·) in the column idx(s, l) selects. -/
def arrFn (c : Dev nD) : S2048x4096.Idx → EReal := fun i =>
  (V m c main_v3 : S64x10.Idx → EReal) (ix2 (⟨(i 0).val % 64, Nat.mod_lt _ (by decide)⟩ : Fin 64)
    (row ((V m c main_arg0 : S32x4096.Idx → BitVec 32)
      (ix2 (⟨(i 0).val / 64, by have h : (i 0).val < 2048 := (i 0).isLt; omega⟩ : Fin 32) (⟨(i 1).val, (i 1).isLt⟩ : Fin 4096)))))

/-- The printed index maps, decided over the four points: the index window moves with the output window on the row
    axis, the table window stays at block (0, 0), and every column block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every one of the four row blocks of the output is some point's. -/
theorem idx_onto : ∀ q : Fin 4, ∃ t : Fin cfg0.N, win0_2.index t = ![q.val, 0] :=
  (by decide +kernel : ∀ q : Fin 4, ∃ t : Fin grid0.N, win0_2.index t = ![q.val, 0])

/-- The table window's block at any point is the whole table. -/
theorem iblk1_apply (c : Dev nD) (t : Fin cfg0.N) (y : S64x10.Idx) :
    (iblk m c 1 t : Vec Ideal S64x10 .f32) y = (V m c main_v3 : S64x10.Idx → EReal) y := by
  obtain ⟨-, -, e2, e3, -, -⟩ := idx_facts t
  unfold iblk
  rw [View.read_apply]
  show V m c main_v3 _ = V m c main_v3 _
  congr 1
  funext a
  apply Fin.ext
  match a with
  | ⟨0, _⟩ => show win0_1.index t (0 : Fin 2) * 64 + 1 * (y 0).val = (y 0).val; omega
  | ⟨1, _⟩ => show win0_1.index t (1 : Fin 2) * 10 + 1 * (y 1).val = (y 1).val; omega

/-- The index window's block at point t: its row k is row 8·(block index) + k of the index array. -/
theorem iblk0_apply (c : Dev nD) (t : Fin cfg0.N) (k : Fin 8) (q : Fin 4096) (s : Fin 32)
    (hs : s.val = win0_0.index t (0 : Fin 2) * 8 + k.val) :
    (iblk m c 0 t : Vec Ideal S8x4096 .i32) (ix2 k q) = (V m c main_arg0 : S32x4096.Idx → BitVec 32) (ix2 s q) := by
  obtain ⟨-, e1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 8 + 1 * k.val = s.val; omega
  | ⟨1, _⟩ => show win0_0.index t (1 : Fin 2) * 4096 + 1 * q.val = q.val; omega

/-- WHAT POINT t WRITES BACK is block t of `arrFn`. -/
theorem flushed_eq (c : Dev nD) (t : Fin cfg0.N) :
    (dats m 0 c).flushed 2 t = ((cfg0.win 2).blk t).view.read (Elt Ideal) (arrFn m c) := by
  show (cfg0.win 2).cut (grid0.coords t) ((dats m 0 c).after 2 t) = _
  rw [after0_2, Block.out_eq]
  obtain ⟨e0, e1, e2, e3, e4, e5⟩ := idx_facts t
  funext j
  have hj0 : (j 0).val < 512 := (j 0).isLt
  have hj1 : (j 1).val < 4096 := (j 1).isLt
  show Block.blockFn (iblk m c 0 t) (iblk m c 1 t) j = arrFn m c (((cfg0.win 2).blk t).view.emb j)
  have hE0 : (((cfg0.win 2).blk t).view.emb j 0).val = win0_2.index t (0 : Fin 2) * 512 + 1 * (j 0).val := rfl
  have hE1 : (((cfg0.win 2).blk t).view.emb j 1).val = win0_2.index t (1 : Fin 2) * 4096 + 1 * (j 1).val := rfl
  unfold Block.blockFn arrFn
  have hs : (((cfg0.win 2).blk t).view.emb j 0).val / 64 = win0_0.index t (0 : Fin 2) * 8 + (j 0).val / 64 := by
    rw [hE0]; omega
  have hlt : (((cfg0.win 2).blk t).view.emb j 0).val / 64 < 32 := by rw [hE0]; omega
  rw [iblk1_apply, iblk0_apply m c t (⟨(j 0).val / 64, by omega⟩ : Fin 8) (⟨(j 1).val, hj1⟩ : Fin 4096)
    (⟨(((cfg0.win 2).blk t).view.emb j 0).val / 64, hlt⟩ : Fin 32) hs]
  have hD : (⟨(j 0).val % 64, Nat.mod_lt _ (by decide)⟩ : Fin 64)
      = ⟨(((cfg0.win 2).blk t).view.emb j 0).val % 64, Nat.mod_lt _ (by decide)⟩ :=
    Fin.ext (by show (j 0).val % 64 = _ % 64; rw [hE0]; omega)
  rw [hD]
  exact congrArg (fun z : Fin 4096 => (V m c main_v3 : S64x10.Idx → EReal)
      (ix2 (⟨(((cfg0.win 2).blk t).view.emb j 0).val % 64, Nat.mod_lt _ (by decide)⟩ : Fin 64)
        (row ((V m c main_arg0 : S32x4096.Idx → BitVec 32)
          (ix2 (⟨(((cfg0.win 2).blk t).view.emb j 0).val / 64, hlt⟩ : Fin 32) z)))))
    (Fin.ext (by show (j 1).val = _; rw [hE1]; omega))

/-- An index of the array is in point t's block iff each coordinate is in the block's range on its axis. -/
theorem mem_blk (t : Fin cfg0.N) (i : S2048x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v4).slice (win0_2.rect t)).set ↔ _
  rw [View.set_slice_whole, Rect.mem_set_unit]
  exact Iff.rfl

/-- THE ARRAY after the region is `arrFn`: the four blocks cover it (row r lies in block r / 512). -/
theorem final (c : Dev nD) : (dats m 0 c).arrAt 2 cfg0.N = arrFn m c :=
  (dats m 0 c).arrAt_eq_of_cover 2 (arrFn m c) (fun t _ => flushed_eq m c t) fun i => by
    have h0 : (i 0).val < 2048 := (i 0).isLt
    have h1 : (i 1).val < 4096 := (i 1).isLt
    obtain ⟨t, ht⟩ := idx_onto ⟨(i 0).val / 512, by omega⟩
    have q0 : win0_2.index t (0 : Fin 2) = (i 0).val / 512 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 4096 ≤ (i 1).val ∧ (i 1).val < win0_2.index t (1 : Fin 2) * 4096 + 4096; omega

/-! ## The line after the region, and the run -/

/-- THE RESULT: the reshape after the region reads the array (r, l) at (0, r, l); with the table and the index array
    as functions of the arguments, that is the selected entry of the projected table. -/
theorem tail_eq (c : Dev nD) :
    Pipeline.afterTail₀ cfgs (dats m) 0 (V0 m) [hostOps1] c main_v5
      = Projected.result (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v5) = _
  after_results
  funext i
  have h0 : (i 0).val < 1 := (i 0).isLt
  have h1 : (i 1).val < 2048 := (i 1).isLt
  have h2 : (i 2).val < 4096 := (i 2).isLt
  have hw : Pipeline.withArrays spec0 c (V0 m c) (fun w => (dats m 0 c).arrAt w cfg0.N) (Proc.devRef .tc main_v4) = arrFn m c :=
    (Pipeline.withArrays_arr spec0 launch0.win.arr_inj c _ _ 2).trans (final m c)
  show shapeCast S1x2048x4096 (Pipeline.withArrays spec0 c (V0 m c) (fun w => (dats m 0 c).arrAt w cfg0.N) (Proc.devRef .tc main_v4))
      shapeCasts_S2048x4096_S1x2048x4096 i = _
  rw [hw]
  refine (shapeCast_apply (arrFn m c) shapeCasts_S2048x4096_S1x2048x4096 i
    (ix2 (⟨(i 1).val, h1⟩ : Fin 2048) (⟨(i 2).val, h2⟩ : Fin 4096)) (by
      rewrite [Shape.rowMajor_val_two, Shape.rowMajor_val_three]
      show (i 1).val * 4096 + (i 2).val = ((i 0).val * 2048 + (i 1).val) * 4096 + (i 2).val
      omega)).trans ?_
  unfold arrFn Projected.result Projected.selected
  rw [table_apply, V_main_arg0]

/-- THE RUN, READ: every weakly fair execution of the kernel's @main terminates with the result array at the selected
    entries of the projected table of the arguments, and the arguments unchanged. -/
theorem run : θ_run defs (onTc (τ := τ) (main (F := Ideal))) ⟨m, fun _ => 0, ρ⟩ fun r => ∀ c : Dev nD,
      r.2.mem ((c.tc : Thread nD τ).loc main_v5) = Projected.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/-
  A lookup-then-project kernel against its reference, over the extended reals.

  Reference: emb = fp[indices] (rows of the 10×1024 fingerprint table), proj(s, l, d) = Σ_f emb(s, l, f) · W(d, f) + b(d),
  and the result is proj transposed to (s, d, l) and flattened to [1, 2048, 4096]: entry (0, 64·s + d, l).
  Kernel: it first folds the projection into the table, T(d, v) = Σ_f W(d, f) · fp(v, f) + b(d) (64×10, on the host), and
  then, per row of index words, selects columns of T with a one-hot matrix product: entry (64·s + d, l) of its
  2048×4096 output is Σ_v T(d, v) · [v = clamp(idx(s, l))], reshaped at the end to [1, 2048, 4096].

  Both are one function of the arguments, `Projected.result`: T(d, row w) at w = idx(s, l).
  * Kernel side: a one-hot sum keeps its one selected term (x · 0 = 0, x · 1 = x on every extended real), and the
    clamp min(9, max(0, w)) is the row a clamped gather reads, for every word w. No hypothesis is used.
  * Reference side: its gather clamps too, but its lookup first wraps a negative index (w + 10 when w < 0), which the
    kernel does not; on indices that are not negative the wrap does nothing. That is the one place the precondition
    is used: besides finiteness it states indices ≥ 0. The sum Σ_f fp · W is Σ_f W · fp by commutativity, term by term.
  The frames of the two kernel programs are the generated ones; the reference's frame is its generated run with the
  result dropped; the idealization rewrote nothing, so `preserves` is trivial.
-/
import proofs.«429291_j19559281066709_3_alg».proof.Defs
import proofs.«429291_j19559281066709_3_alg».proof.Proof.Gen.Kernel
import proofs.«429291_j19559281066709_3_alg».proof.Proof.Gen.Kernel.Skeleton
import proofs.«429291_j19559281066709_3_alg».proof.Proof.Gen.Kernel.Launch
import proofs.«429291_j19559281066709_3_alg».proof.Proof.Gen.Kernel.Points
import proofs.«429291_j19559281066709_3_alg».proof.Proof.Gen.Kernel.Frame
import proofs.«429291_j19559281066709_3_alg».proof.Proof.Gen.KernelIdeal
import proofs.«429291_j19559281066709_3_alg».proof.Proof.Gen.KernelIdeal.Skeleton
import proofs.«429291_j19559281066709_3_alg».proof.Proof.Gen.KernelIdeal.Launch
import proofs.«429291_j19559281066709_3_alg».proof.Proof.Gen.KernelIdeal.Points
import proofs.«429291_j19559281066709_3_alg».proof.Proof.Gen.KernelIdeal.Frame
import proofs.«429291_j19559281066709_3_alg».proof.Proof.Gen.ReferenceIdeal
import proofs.«429291_j19559281066709_3_alg».proof.Proof.Gen.Pre_finite_inputs
import proofs.«429291_j19559281066709_3_alg».proof.Proof.Gen.ReferenceIdeal.Run
import proofs.«429291_j19559281066709_3_alg».proof.Proof.Gen.ReferenceIdeal.Read
import proofs.«429291_j19559281066709_3_alg».proof.Proof.IndexDomain
import proofs.«429291_j19559281066709_3_alg».proof.Proof.RefValue
import proofs.«429291_j19559281066709_3_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the selected entries of the projected table of its arguments; the reference's
    at its own composed term, which is the same function of arguments that agree as soon as no index is negative —
    and the precondition says none is. -/
theorem algebraic : Cert.algebraic_KernelIdeal_ReferenceIdeal := by
  intro m ρ m' ρ' hpre hagree
  refine ⟨fun c => Projected.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2]
  exact Cert.ReferenceIdeal.RefValue.result_eq _ _ _ _
    (Cert.Pre_finite_inputs.IndexDomain.idx_nonneg _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
